-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn {F : FTy → Type} [FloatOps F] (main_arg0 : FVec F S4x2048x4096 .f32) (main_arg1 : FVec F S16x4096 .f32) (main_arg2 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  main_v13
-- ==== Kernel.lean ====
abbrev S4x2048x4096 : Shape := ⟨3, ![4, 2048, 4096]⟩
abbrev S16x4096 : Shape := ⟨2, ![16, 4096]⟩
abbrev S4096x16 : Shape := ⟨2, ![4096, 16]⟩
abbrev S8192x4096 : Shape := ⟨2, ![8192, 4096]⟩
abbrev S256x4096 : Shape := ⟨2, ![256, 4096]⟩
abbrev S256x16 : Shape := ⟨2, ![256, 16]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S4096x16, .f32⟩
  | .hbm, ⟨3, _⟩ => ⟨S8192x4096, .f32⟩
  | .hbm, ⟨4, _⟩ => ⟨S8192x4096, .f32⟩
  | .hbm, ⟨5, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S16x4096, .f32⟩
  | .local _ .vmem, ⟨3, _⟩ => ⟨S4096x16, .f32⟩
  | .local _ .vmem, ⟨4, _⟩ => ⟨S256x4096, .f32⟩
  | .local _ .vmem, ⟨5, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  inb_S4096x16_S4096x16_0_0 : ∀ a, (![0, 0] : Fin 2 → Nat) a + S4096x16.size a ≤ S4096x16.size a
  h_S4096x16 : 0 < S4096x16.numel
  shapeCasts_S8192x4096_S4x2048x4096 : S8192x4096.ShapeCasts S4x2048x4096
  dot_S256x4096_S16x4096_S256x16_1_1_0_0_n_n_wf : DotDims.WF S256x4096 S16x4096 S256x16 [1] [1] [0] [0] [] []
  dot_S256x16_S4096x16_S256x4096_1_1_0_0_n_n_wf : DotDims.WF S256x16 S4096x16 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S4096x16.size a
  hwx0_2 : ∀ i : grid0.Coords, EltTy.bits .f32 = 32 ∨ (Rect.block (s := S4096x16) S4096x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x16_S4096x16_S256x4096_1_1_0_0_n_n : DotDims S256x16 S4096x16 S256x4096 where
  lhsContracting := [1]
  rhsContracting := [1]
  lhsNonContracting := [0]
  rhsNonContracting := [0]
  lhsBatch := []
  rhsBatch := []
  wf := dot_S256x16_S4096x16_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16x4096 : Shape := ⟨2, ![16, 4096]⟩
abbrev S4096x16 : Shape := ⟨2, ![4096, 16]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S4096x16, .f32⟩
  | .hbm, ⟨3, _⟩ => ⟨S4096x4096, .f32⟩
  | .hbm, ⟨4, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Finite.lean ====
/-
  Finiteness out of the precondition.

  The precondition says that on each of the three inputs every entry's absolute value is below +∞, joined by
  `and`. An extended real whose absolute value is below +∞ is neither infinity, so it is a real number: this is
  the form in which the algebraic law wants its hypotheses.
-/
import proofs.«175328_j45337674777150_1_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.LowRank

open Idealize.ShloMosaic Idealize.ShloMosaic.ValueIdx Cert.Pre_finite_inputs

variable [Cert.Pre_finite_inputs.Facts]

/-- The scalar shape has one index. -/
instance : Subsingleton Cert.Pre_finite_inputs.S_.Idx := ⟨fun a b => funext fun d => d.elim0⟩

/-- An extended real with `|x| < +∞` (the comparison's bit is set) is a real number. -/
theorem real_of_abs_lt_top (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of every input is a real number. -/
theorem real_of_pre (x : FVec Ideal S4x2048x4096 .f32) (a : FVec Ideal S16x4096 .f32) (b : FVec Ideal S4096x16 .f32)
    (h : Cert.Pre_finite_inputs.fn (F := Ideal) x a b = fun _ => 1#1) :
    (∀ j, ∃ r : ℝ, x j = r) ∧ (∀ j, ∃ r : ℝ, a j = r) ∧ (∀ j, ∃ r : ℝ, b j = r) := by
  have h0 := congrFun h ix0
  dsimp only [Cert.Pre_finite_inputs.fn] at h0
  obtain ⟨hxa, hb⟩ := IntOp.andi_eq_one.mp h0
  obtain ⟨hx, ha⟩ := IntOp.andi_eq_one.mp hxa
  exact ⟨fun j => real_of_abs_lt_top _ (Host.reduce_andi_all _ _ _ _ _ hx j),
    fun j => real_of_abs_lt_top _ (Host.reduce_andi_all _ _ _ _ _ ha j),
    fun j => real_of_abs_lt_top _ (Host.reduce_andi_all _ _ _ _ _ hb j)⟩

end Cert.LowRank

end
-- ==== Proof.SumLaw.lean ====
/-
  The law that joins the two programs.

  The kernel first projects a row `x` onto the sixteen rows of `a` and then expands the sixteen numbers by `b`;
  the reference first multiplies `b` by `a` and then applies the product to `x`. Over the reals these are one
  number: the product distributes over the finite sums and the two sums change places. On the extended reals
  distributivity fails at the infinities, so the law is stated for entries that are real numbers, and proved by
  moving the whole expression into the reals.
-/
import Idealize.ShloMosaic.PureOps.Ideal.Laws

noncomputable section

open scoped BigOperators

namespace Cert.LowRank

/-- The embedding of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: projecting onto the rows of `a` and expanding by `b` is applying the product of `b` and `a`. -/
theorem factor_real {I K : Type*} [Fintype I] [Fintype K] (x : I → ℝ) (a : K → I → ℝ) (b : K → ℝ) :
    ∑ k, (∑ i, x i * a k i) * b k = ∑ i, x i * ∑ k, b k * a k i := by
  simp only [Finset.sum_mul, Finset.mul_sum]
  rw [Finset.sum_comm]
  exact Finset.sum_congr rfl fun i _ => Finset.sum_congr rfl fun k _ => by ring

/-- The same on the extended reals, for entries that are real numbers. -/
theorem factor_through {I K : Type*} [Fintype I] [Fintype K] (x : I → EReal) (a : K → I → EReal) (b : K → EReal)
    (hx : ∀ i, ∃ r : ℝ, x i = r) (ha : ∀ k i, ∃ r : ℝ, a k i = r) (hb : ∀ k, ∃ r : ℝ, b k = r) :
    ∑ k, (∑ i, x i * a k i) * b k = ∑ i, x i * ∑ k, b k * a k i := by
  choose xr hx using hx
  choose ar ha using ha
  choose br hb using hb
  have el : ∀ k, (∑ i, x i * a k i) * b k = (((∑ i, xr i * ar k i) * br k : ℝ) : EReal) := fun k => by
    rw [EReal.coe_mul, coe_sum, hb k]
    exact congrArg (· * (br k : EReal)) (Finset.sum_congr rfl fun i _ => by rw [hx i, ha k i, EReal.coe_mul])
  have er : ∀ i, x i * ∑ k, b k * a k i = ((xr i * ∑ k, br k * ar k i : ℝ) : EReal) := fun i => by
    rw [EReal.coe_mul, coe_sum, hx i]
    exact congrArg ((xr i : EReal) * ·) (Finset.sum_congr rfl fun k _ => by rw [hb k, ha k i, EReal.coe_mul])
  rw [Finset.sum_congr rfl fun k _ => el k, Finset.sum_congr rfl fun i _ => er i, ← coe_sum, ← coe_sum,
    factor_real]

end Cert.LowRank

end
-- ==== Proof.Spec.lean ====
/-
  The two arrangements of the low-rank update, as functions of the three input arrays, and their equality.

  `lora x a b` is the reference's arrangement: entry `(n, s, o)` is `∑ i, x (n, s, i) · (∑ k, b (o, k) · a (k, i))`,
  the row `x (n, s, ·)` applied to row `o` of the 4096 × 4096 product of `b` and `a`.

  `projectExpand y a b` is the kernel's arrangement on the activations laid out as 8192 rows: entry `(r, o)` is
  `∑ k, (∑ i, y (r, i) · a (k, i)) · b (o, k)`, row `r` projected onto the sixteen rows of `a` and expanded by row
  `o` of `b`. The kernel reshapes [4, 2048, 4096] to [8192, 4096] before and back after; row `r = 2048 n + s` of the
  flat layout is row `(n, s)` of the input, both layouts being row-major.

  With every entry a real number the two are equal (`factor_through`).
-/
import proofs.«175328_j45337674777150_1_alg».proof.Proof.SumLaw
import Idealize.ShloMosaic.Lib.Pipeline.Value
import Idealize.ShloMosaic.Lib.ValueIdx

noncomputable section

open scoped BigOperators

namespace Cert.LowRank

open Idealize.ShloMosaic Idealize.ShloMosaic.ValueIdx

abbrev Sx : Shape := ⟨3, ![4, 2048, 4096]⟩
abbrev Sflat : Shape := ⟨2, ![8192, 4096]⟩
abbrev Sa : Shape := ⟨2, ![16, 4096]⟩
abbrev Sb : Shape := ⟨2, ![4096, 16]⟩

/-- The reference's arrangement: `x` applied to the product of `b` and `a`. -/
def lora (x : Sx.Idx → EReal) (a : Sa.Idx → EReal) (b : Sb.Idx → EReal) : Sx.Idx → EReal :=
  fun j => ∑ i : Fin 4096, x (ix3 (j 0) (j 1) i) * ∑ k : Fin 16, b (ix2 (j 2) k) * a (ix2 k i)

/-- The kernel's arrangement on the flat layout: project onto the rows of `a`, expand by the rows of `b`. -/
def projectExpand (y : Sflat.Idx → EReal) (a : Sa.Idx → EReal) (b : Sb.Idx → EReal) : Sflat.Idx → EReal :=
  fun j => ∑ k : Fin 16, (∑ i : Fin 4096, y (ix2 (j 0) i) * a (ix2 k i)) * b (ix2 (j 1) k)

/-- Row `2048 n + s` of the flat layout. -/
abbrev flatRow (n : Fin 4) (s : Fin 2048) : Fin 8192 := ⟨n.val * 2048 + s.val, by have := n.isLt; have := s.isLt; omega⟩

/-- The flat layout of `x` at `(2048 n + s, i)` is `x (n, s, i)`. -/
theorem flat_apply (x : Sx.Idx → EReal) (h : Sx.ShapeCasts Sflat) (n : Fin 4) (s : Fin 2048) (i : Fin 4096) :
    shapeCast Sflat x h (ix2 (flatRow n s) i) = x (ix3 n s i) :=
  shapeCast_apply x h _ _ (by rw [Shape.rowMajor_val_three, Shape.rowMajor_val_two]; rfl)

/-- Reshaped back, entry `(n, s, o)` is entry `(2048 n + s, o)` of the flat layout. -/
theorem unflat_apply (y : Sflat.Idx → EReal) (h : Sflat.ShapeCasts Sx) (n : Fin 4) (s : Fin 2048) (o : Fin 4096) :
    shapeCast Sx y h (ix3 n s o) = y (ix2 (flatRow n s) o) :=
  shapeCast_apply y h _ _ (by rw [Shape.rowMajor_val_three, Shape.rowMajor_val_two]; rfl)

/-- The kernel's arrangement between its two reshapes is the reference's, when every entry is a real number. -/
theorem unflat_projectExpand_flat (x : Sx.Idx → EReal) (a : Sa.Idx → EReal) (b : Sb.Idx → EReal)
    (h₁ : Sx.ShapeCasts Sflat) (h₂ : Sflat.ShapeCasts Sx)
    (hx : ∀ j, ∃ r : ℝ, x j = r) (ha : ∀ j, ∃ r : ℝ, a j = r) (hb : ∀ j, ∃ r : ℝ, b j = r) :
    shapeCast Sx (projectExpand (shapeCast Sflat x h₁) a b) h₂ = lora x a b := by
  funext j
  obtain ⟨n, s, o, rfl⟩ : ∃ (n : Fin 4) (s : Fin 2048) (o : Fin 4096), j = ix3 n s o := ⟨j 0, j 1, j 2, eq_ix3 j⟩
  rw [unflat_apply]
  show ∑ k : Fin 16, (∑ i : Fin 4096, shapeCast Sflat x h₁ (ix2 (flatRow n s) i) * a (ix2 k i)) * b (ix2 o k)
    = ∑ i : Fin 4096, x (ix3 n s i) * ∑ k : Fin 16, b (ix2 o k) * a (ix2 k i)
  simp only [flat_apply]
  exact factor_through (fun i => x (ix3 n s i)) (fun k i => a (ix2 k i)) (fun k => b (ix2 o k))
    (fun i => hx _) (fun k i => ha _) (fun k => hb _)

end Cert.LowRank

end
-- ==== Proof.RefRead.lean ====
/-
  The reference's result, entry by entry, is `lora`.

  The reference first forms the 4096 × 4096 product of `b` (4096 × 16) and `a` (16 × 4096), then contracts the
  last axis of `x` with the second axis of that product. Read at entry `(n, s, o)` the outer product is the sum
  over the feature `i` of `x (n, s, i)` times entry `(o, i)` of the inner product, which is the sum over the rank
  `k` of `b (o, k) · a (k, i)`.
-/
import proofs.«175328_j45337674777150_1_alg».proof.Proof.Gen.ReferenceIdeal.Read
import proofs.«175328_j45337674777150_1_alg».proof.Proof.Spec

noncomputable section

open scoped BigOperators

namespace Cert.ReferenceIdeal.Hand

open Cert.ReferenceIdeal Cert.ReferenceIdeal.Read Idealize.ShloMosaic Idealize.ShloMosaic.ValueIdx Cert.LowRank

/-- The two products of the reference, composed, are `lora` of the three inputs. -/
theorem ref_eq_lora (x : Sx.Idx → EReal) (a : Sa.Idx → EReal) (b : Sb.Idx → EReal) :
    val_main_v1 (F := Ideal) x a b = lora x a b := by
  funext j
  rw [val_main_v1_apply]
  refine Finset.sum_congr rfl fun i _ => ?_
  rw [val_main_v0_apply]
  have e0 : lidx_main_v1 j i = ix3 (j 0) (j 1) i :=
    funext fun d => Fin.ext (by match d with | ⟨0, _⟩ => rfl | ⟨1, _⟩ => rfl | ⟨2, _⟩ => rfl)
  have e1 : ∀ k : Fin 16, lidx_main_v0 (ridx_main_v1 j i) k = ix2 (j 2) k := fun k =>
    funext fun d => Fin.ext (by match d with | ⟨0, _⟩ => rfl | ⟨1, _⟩ => rfl)
  have e2 : ∀ k : Fin 16, ridx_main_v0 (ridx_main_v1 j i) k = ix2 k i := fun k =>
    funext fun d => Fin.ext (by match d with | ⟨0, _⟩ => rfl | ⟨1, _⟩ => rfl)
  rw [e0]
  simp only [e1, e2]
  rfl

end Cert.ReferenceIdeal.Hand

end
-- ==== Proof.Payload.lean ====
/-
  What the kernel's body stores, read at one entry of the block.

  The body loads a block `x` of 256 rows of the activations, the whole of `a` (16 × 4096) and the whole of `b`
  (4096 × 16). It multiplies `x` by the transpose of `a` (both operands contract their second axis, the 4096
  features), getting 256 × 16 numbers, and multiplies those by the transpose of `b` (both contract their second
  axis, the rank 16). At the ideal values a change of float format is the identity and a product into the zero
  accumulator is the plain sum over the contracted axis, so entry `(p, q)` of the stored block is
  `∑ k, (∑ i, x (p, i) · a (k, i)) · b (q, k)`.
-/
import proofs.«175328_j45337674777150_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The projection: 256 × 4096 against 16 × 4096, contracting the 4096 -/

theorem proj_lhs_0 (i : S256x16.Idx) (q : dot_S256x4096_S16x4096_S256x16_1_1_0_0_n_n.contr.Idx) :
    (dot_S256x4096_S16x4096_S256x16_1_1_0_0_n_n.lhsIdx i q 0).val = (i 0).val := by
  unfold DotDims.lhsIdx
  rw [dif_neg (show ¬(0 : Fin S256x4096.rank) ∈ dot_S256x4096_S16x4096_S256x16_1_1_0_0_n_n.lhsBatch by decide), dif_pos (show (0 : Fin S256x4096.rank) ∈ dot_S256x4096_S16x4096_S256x16_1_1_0_0_n_n.lhsNonContracting by decide)]
  rfl
theorem proj_lhs_1 (i : S256x16.Idx) (q : dot_S256x4096_S16x4096_S256x16_1_1_0_0_n_n.contr.Idx) :
    (dot_S256x4096_S16x4096_S256x16_1_1_0_0_n_n.lhsIdx i q 1).val = (q ⟨0, by decide⟩).val :=
  dot_S256x4096_S16x4096_S256x16_1_1_0_0_n_n.lhsIdx_val_of_single rfl i q
theorem proj_rhs_0 (i : S256x16.Idx) (q : dot_S256x4096_S16x4096_S256x16_1_1_0_0_n_n.contr.Idx) :
    (dot_S256x4096_S16x4096_S256x16_1_1_0_0_n_n.rhsIdx i q 0).val = (i 1).val := by
  unfold DotDims.rhsIdx
  rw [dif_neg (show ¬(0 : Fin S16x4096.rank) ∈ dot_S256x4096_S16x4096_S256x16_1_1_0_0_n_n.rhsBatch by decide), dif_pos (show (0 : Fin S16x4096.rank) ∈ dot_S256x4096_S16x4096_S256x16_1_1_0_0_n_n.rhsNonContracting by decide)]
  rfl
theorem proj_rhs_1 (i : S256x16.Idx) (q : dot_S256x4096_S16x4096_S256x16_1_1_0_0_n_n.contr.Idx) :
    (dot_S256x4096_S16x4096_S256x16_1_1_0_0_n_n.rhsIdx i q 1).val = (q ⟨0, by decide⟩).val :=
  dot_S256x4096_S16x4096_S256x16_1_1_0_0_n_n.rhsIdx_val_of_single rfl i q

/-- Entry `(p, k)` of the projection is the inner product of row `p` of the block with row `k` of `a`. -/
theorem proj_apply {φ₁ φ₂ : FTy} (x : FVec Ideal S256x4096 φ₁) (a : FVec Ideal S16x4096 φ₂) (p : Fin 256) (k : Fin 16) :
    FloatOps.matmul dot_S256x4096_S16x4096_S256x16_1_1_0_0_n_n none x a (constant S256x16 .f32 0x00000000#32) (ix2 p k)
      = ∑ i : Fin 4096, x (ix2 p i) * a (ix2 k i) := by
  rw [Ideal.matmul_constant_zero_apply, ← Equiv.sum_comp (contrEquiv1 dot_S256x4096_S16x4096_S256x16_1_1_0_0_n_n 4096 rfl rfl).symm]
  refine Finset.sum_congr rfl fun i _ => ?_
  have hk := contrEquiv1_symm_val dot_S256x4096_S16x4096_S256x16_1_1_0_0_n_n 4096 rfl rfl i
  have el : dot_S256x4096_S16x4096_S256x16_1_1_0_0_n_n.lhsIdx (ix2 p k) ((contrEquiv1 dot_S256x4096_S16x4096_S256x16_1_1_0_0_n_n 4096 rfl rfl).symm i) = ix2 p i := funext fun d => Fin.ext (by
    match d with
    | ⟨0, _⟩ => exact proj_lhs_0 _ _
    | ⟨1, _⟩ => exact (proj_lhs_1 _ _).trans hk)
  have er : dot_S256x4096_S16x4096_S256x16_1_1_0_0_n_n.rhsIdx (ix2 p k) ((contrEquiv1 dot_S256x4096_S16x4096_S256x16_1_1_0_0_n_n 4096 rfl rfl).symm i) = ix2 k i := funext fun d => Fin.ext (by
    match d with
    | ⟨0, _⟩ => exact proj_rhs_0 _ _
    | ⟨1, _⟩ => exact (proj_rhs_1 _ _).trans hk)
  rw [el, er]

/-! ## The expansion: 256 × 16 against 4096 × 16, contracting the 16 -/

theorem expand_lhs_0 (i : S256x4096.Idx) (q : dot_S256x16_S4096x16_S256x4096_1_1_0_0_n_n.contr.Idx) :
    (dot_S256x16_S4096x16_S256x4096_1_1_0_0_n_n.lhsIdx i q 0).val = (i 0).val := by
  unfold DotDims.lhsIdx
  rw [dif_neg (show ¬(0 : Fin S256x16.rank) ∈ dot_S256x16_S4096x16_S256x4096_1_1_0_0_n_n.lhsBatch by decide), dif_pos (show (0 : Fin S256x16.rank) ∈ dot_S256x16_S4096x16_S256x4096_1_1_0_0_n_n.lhsNonContracting by decide)]
  rfl
theorem expand_lhs_1 (i : S256x4096.Idx) (q : dot_S256x16_S4096x16_S256x4096_1_1_0_0_n_n.contr.Idx) :
    (dot_S256x16_S4096x16_S256x4096_1_1_0_0_n_n.lhsIdx i q 1).val = (q ⟨0, by decide⟩).val :=
  dot_S256x16_S4096x16_S256x4096_1_1_0_0_n_n.lhsIdx_val_of_single rfl i q
theorem expand_rhs_0 (i : S256x4096.Idx) (q : dot_S256x16_S4096x16_S256x4096_1_1_0_0_n_n.contr.Idx) :
    (dot_S256x16_S4096x16_S256x4096_1_1_0_0_n_n.rhsIdx i q 0).val = (i 1).val := by
  unfold DotDims.rhsIdx
  rw [dif_neg (show ¬(0 : Fin S4096x16.rank) ∈ dot_S256x16_S4096x16_S256x4096_1_1_0_0_n_n.rhsBatch by decide), dif_pos (show (0 : Fin S4096x16.rank) ∈ dot_S256x16_S4096x16_S256x4096_1_1_0_0_n_n.rhsNonContracting by decide)]
  rfl
theorem expand_rhs_1 (i : S256x4096.Idx) (q : dot_S256x16_S4096x16_S256x4096_1_1_0_0_n_n.contr.Idx) :
    (dot_S256x16_S4096x16_S256x4096_1_1_0_0_n_n.rhsIdx i q 1).val = (q ⟨0, by decide⟩).val :=
  dot_S256x16_S4096x16_S256x4096_1_1_0_0_n_n.rhsIdx_val_of_single rfl i q

/-- Entry `(p, q)` of the expansion is the inner product of row `p` of the projection with row `q` of `b`. -/
theorem expand_apply {φ₁ φ₂ : FTy} (y : FVec Ideal S256x16 φ₁) (b : FVec Ideal S4096x16 φ₂) (p : Fin 256) (q : Fin 4096) :
    FloatOps.matmul dot_S256x16_S4096x16_S256x4096_1_1_0_0_n_n none y b (constant S256x4096 .f32 0x00000000#32) (ix2 p q)
      = ∑ k : Fin 16, y (ix2 p k) * b (ix2 q k) := by
  rw [Ideal.matmul_constant_zero_apply, ← Equiv.sum_comp (contrEquiv1 dot_S256x16_S4096x16_S256x4096_1_1_0_0_n_n 16 rfl rfl).symm]
  refine Finset.sum_congr rfl fun k _ => ?_
  have hk := contrEquiv1_symm_val dot_S256x16_S4096x16_S256x4096_1_1_0_0_n_n 16 rfl rfl k
  have el : dot_S256x16_S4096x16_S256x4096_1_1_0_0_n_n.lhsIdx (ix2 p q) ((contrEquiv1 dot_S256x16_S4096x16_S256x4096_1_1_0_0_n_n 16 rfl rfl).symm k) = ix2 p k := funext fun d => Fin.ext (by
    match d with
    | ⟨0, _⟩ => exact expand_lhs_0 _ _
    | ⟨1, _⟩ => exact (expand_lhs_1 _ _).trans hk)
  have er : dot_S256x16_S4096x16_S256x4096_1_1_0_0_n_n.rhsIdx (ix2 p q) ((contrEquiv1 dot_S256x16_S4096x16_S256x4096_1_1_0_0_n_n 16 rfl rfl).symm k) = ix2 q k := funext fun d => Fin.ext (by
    match d with
    | ⟨0, _⟩ => exact expand_rhs_0 _ _
    | ⟨1, _⟩ => exact (expand_rhs_1 _ _).trans hk)
  rw [el, er]

/-! ## The stored block at an entry -/

/-- Entry `(p, q)` of what the body stores, from the three loaded blocks. -/
theorem pay_apply (x : Vec Ideal S256x4096 .f32) (a : Vec Ideal S16x4096 .f32) (b : Vec Ideal S4096x16 .f32)
    (p : Fin 256) (q : Fin 4096) :
    k0_pay1 (F := Ideal) x a b (ix2 p q)
      = ∑ k : Fin 16, (∑ i : Fin 4096, x (ix2 p i) * a (ix2 k i)) * b (ix2 q k) := by
  unfold k0_pay1
  rw [shapeCast_self]
  refine (expand_apply _ _ p q).trans ?_
  refine Finset.sum_congr rfl fun k _ => ?_
  refine congrArg (· * b (ix2 q k)) ?_
  exact proj_apply _ _ p k

end Cert.KernelIdeal.Hand

end
-- ==== Proof.KernelValue.lean ====
/-
  What the kernel's run leaves in its result, as a function of the three inputs.

  The program reshapes the activations [4, 2048, 4096] to 8192 rows, runs the kernel on 32 blocks of 256 rows, and
  reshapes the 8192 × 4096 output back. At grid point `t` the kernel sees rows `256 t … 256 t + 255` of the flat
  activations and the whole of `a` and `b`, and writes rows `256 t … 256 t + 255` of the output. Each stored
  entry is the corresponding entry of `projectExpand` of the three arrays (the payload at an entry, with each loaded
  block read where its window puts it); the 32 blocks cover the output, so the output array ends at `projectExpand`
  of the arrays; the host's reshape after the kernel reads that array, and the reshape before it is what the kernel
  found in its first operand.
-/
import proofs.«175328_j45337674777150_1_alg».proof.Proof.Gen.KernelIdeal.Frame
import proofs.«175328_j45337674777150_1_alg».proof.Proof.Payload
import proofs.«175328_j45337674777150_1_alg».proof.Proof.Spec
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.LowRank

variable (m : (ℓ : Loc nD τ sig) → Buf (Elt Ideal) ℓ) (ρ : Dev nD → PrngReg)

theorem hz : (![0, 0] : Fin 2 → Nat) = fun _ => 0 := funext fun a => by fin_cases a <;> rfl

/-! ## One stored entry -/

/-- Entry `(p, q)` of the stored block is entry `j` of `projectExpand` of the arrays, when row `p` of the loaded
    activations is row `j 0` of the flat array, the two small blocks are their arrays, and `j`'s column is `q`. -/
theorem stored_entry (x : Vec Ideal S256x4096 .f32) (a : Vec Ideal S16x4096 .f32) (b : Vec Ideal S4096x16 .f32)
    (X : Sflat.Idx → EReal) (A : Sa.Idx → EReal) (B : Sb.Idx → EReal) (p : Fin 256) (q : Fin 4096) (j : Sflat.Idx)
    (hx : ∀ i : Fin 4096, x (ix2 p i) = X (ix2 (j 0) i)) (ha : ∀ (k : Fin 16) (i : Fin 4096), a (ix2 k i) = A (ix2 k i))
    (hb : ∀ (o : Fin 4096) (k : Fin 16), b (ix2 o k) = B (ix2 o k)) (hj : j 1 = q) :
    k0_pay1 (F := Ideal) x a b (ix2 p q) = projectExpand X A B j := by
  rw [pay_apply]
  show _ = ∑ k : Fin 16, (∑ i : Fin 4096, X (ix2 (j 0) i) * A (ix2 k i)) * B (ix2 (j 1) k)
  rw [hj]
  simp only [hx, ha, hb]

/-! ## Where each window's block sits -/

/-- The printed index maps over the grid: the activations' and the output's block row is the point's number, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## What point `t` writes back -/

/-- Point `t` writes back block `t` of `projectExpand` of the arrays as the kernel finds them. -/
theorem flushed_eq (c : Dev nD) (t : Fin cfg0.N) :
    (dats m 0 c).flushed 3 t
      = ((cfg0.win 3).blk t).view.read (Elt Ideal) (projectExpand (V m c main_v0) (V m c main_arg1) (V m c main_arg2)) := by
  show (cfg0.win 3).cut (grid0.coords t) ((dats m 0 c).after 3 t) = _
  rw [after0_3]
  unfold out0_3
  rw [View.canon_unit_zero hz]
  simp only [View.ld_unit_zero (S := S256x4096) hz, View.ld_unit_zero (S := S16x4096) hz, View.ld_unit_zero (S := S4096x16) hz]
  obtain ⟨e00, e01, e10, e11, e20, e21, e30, e31⟩ := idx_facts t
  funext y
  obtain ⟨p, q, rfl⟩ : ∃ (p : Fin 256) (q : Fin 4096), y = ix2 p q := ⟨y 0, y 1, eq_ix2 y⟩
  show k0_pay1 (F := Ideal) (iblk m c 0 t) (iblk m c 1 t) (iblk m c 2 t) (ix2 p q)
    = projectExpand (V m c main_v0) (V m c main_arg1) (V m c main_arg2) (((cfg0.win 3).blk t).view.emb (ix2 p q))
  refine stored_entry (iblk m c 0 t) (iblk m c 1 t) (iblk m c 2 t) (V m c main_v0) (V m c main_arg1) (V m c main_arg2) p q
    (((cfg0.win 3).blk t).view.emb (ix2 p q)) ?_ ?_ ?_ ?_
  · intro i
    show V m c main_v0 (((cfg0.win 0).blk t).view.emb (ix2 p i))
      = V m c main_v0 (ix2 ((((cfg0.win 3).blk t).view.emb (ix2 p q)) 0) i)
    congr 1
    funext d; apply Fin.ext
    match d with
    | ⟨0, _⟩ => show win0_0.index t (0 : Fin 2) * 256 + 1 * p.val = win0_3.index t (0 : Fin 2) * 256 + 1 * p.val; rw [e00, e30]
    | ⟨1, _⟩ => show win0_0.index t (1 : Fin 2) * 4096 + 1 * i.val = i.val; rw [e01]; omega
  · intro k i
    show V m c main_arg1 (((cfg0.win 1).blk t).view.emb (ix2 k i)) = V m c main_arg1 (ix2 k i)
    congr 1
    funext d; apply Fin.ext
    match d with
    | ⟨0, _⟩ => show win0_1.index t (0 : Fin 2) * 16 + 1 * k.val = k.val; rw [e10]; omega
    | ⟨1, _⟩ => show win0_1.index t (1 : Fin 2) * 4096 + 1 * i.val = i.val; rw [e11]; omega
  · intro o k
    show V m c main_arg2 (((cfg0.win 2).blk t).view.emb (ix2 o k)) = V m c main_arg2 (ix2 o k)
    congr 1
    funext d; apply Fin.ext
    match d with
    | ⟨0, _⟩ => show win0_2.index t (0 : Fin 2) * 4096 + 1 * o.val = o.val; rw [e20]; omega
    | ⟨1, _⟩ => show win0_2.index t (1 : Fin 2) * 16 + 1 * k.val = k.val; rw [e21]; omega
  · apply Fin.ext
    show win0_3.index t (1 : Fin 2) * 4096 + 1 * q.val = q.val
    rw [e31]; omega

/-! ## The blocks cover the output -/

/-- An index of the output is in point `t`'s block iff each coordinate is in the block's range on its axis. -/
theorem mem_blk (t : Fin cfg0.N) (i : S8192x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v1).slice (win0_3.rect t)).set ↔ _
  rw [View.set_slice_whole, Rect.mem_set_unit]
  exact Iff.rfl

/-- Row `r` of the output is written back by point `r / 256`. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 32 := N_0
  have ht : (i 0).val / 256 < cfg0.N := by rw [hN]; omega
  obtain ⟨-, -, -, -, -, -, e30, e31⟩ := idx_facts ⟨(i 0).val / 256, ht⟩
  refine ⟨⟨(i 0).val / 256, ht⟩, flush0_3 _, ?_⟩
  rw [mem_blk]
  intro a
  match a with
  | ⟨0, _⟩ =>
    show win0_3.index ⟨(i 0).val / 256, ht⟩ (0 : Fin 2) * 256 ≤ (i 0).val
      ∧ (i 0).val < win0_3.index ⟨(i 0).val / 256, ht⟩ (0 : Fin 2) * 256 + 256
    rw [e30]
    show (i 0).val / 256 * 256 ≤ (i 0).val ∧ (i 0).val < (i 0).val / 256 * 256 + 256
    omega
  | ⟨1, _⟩ =>
    show win0_3.index ⟨(i 0).val / 256, ht⟩ (1 : Fin 2) * 4096 ≤ (i 1).val
      ∧ (i 1).val < win0_3.index ⟨(i 0).val / 256, ht⟩ (1 : Fin 2) * 4096 + 4096
    rw [e31]
    omega

/-- The output array after the kernel: `projectExpand` of the arrays as the kernel finds them. -/
theorem final_out (c : Dev nD) :
    (dats m 0 c).arrAt 3 cfg0.N = projectExpand (V m c main_v0) (V m c main_arg1) (V m c main_arg2) :=
  (dats m 0 c).arrAt_eq_of_cover 3 (projectExpand (V m c main_v0) (V m c main_arg1) (V m c main_arg2))
    (fun t _ => flushed_eq m c t) covered

/-! ## The two reshapes around the kernel -/

/-- The kernel's first operand is the activations reshaped to 8192 rows. -/
theorem V_flat (c : Dev nD) :
    (V m c main_v0 : S8192x4096.Idx → EReal)
      = shapeCast S8192x4096 (m ((c : Thread nD τ).loc main_arg0)) Gen.shapeCasts_S4x2048x4096_S8192x4096 := by
  show StableHlo.after hostOps0 (fun b => m (c, b)) (Proc.devRef .tc main_v0) = _
  after_results
  rfl

/-- The program's result is the kernel's output array reshaped back. -/
theorem tail_eq (c : Dev nD) :
    (Pipeline.afterTail₀ cfgs (dats m) 0 (V0 m) [hostOps1] c main_v2 : S4x2048x4096.Idx → EReal)
      = shapeCast S4x2048x4096 ((dats m 0 c).arrAt 3 cfg0.N) Gen.shapeCasts_S8192x4096_S4x2048x4096 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 3 cfg0.N := Pipeline.withArrays_arr spec0 launch0.win.arr_inj c _ _ 3
  rw [e]
  rfl

/-! ## The result and the run -/

/-- The three inputs on core `c`, at their literal types. -/
abbrev xin (c : Dev nD) : Sx.Idx → EReal := m ((c : Thread nD τ).loc main_arg0)
abbrev ain (c : Dev nD) : Sa.Idx → EReal := m ((c : Thread nD τ).loc main_arg1)
abbrev bin (c : Dev nD) : Sb.Idx → EReal := m ((c : Thread nD τ).loc main_arg2)

/-- The program's result is `lora` of the inputs, when every entry of every input is a real number. -/
theorem result_eq (c : Dev nD)
    (hx : ∀ j, ∃ r : ℝ, xin m c j = r) (ha : ∀ j, ∃ r : ℝ, ain m c j = r) (hb : ∀ j, ∃ r : ℝ, bin m c j = r) :
    (Pipeline.afterTail₀ cfgs (dats m) 0 (V0 m) [hostOps1] c main_v2 : Sx.Idx → EReal)
      = lora (m ((c : Thread nD τ).loc main_arg0)) (m ((c : Thread nD τ).loc main_arg1)) (m ((c : Thread nD τ).loc main_arg2)) := by
  rw [tail_eq, final_out, V_flat, V_main_arg1, V_main_arg2]
  exact unflat_projectExpand_flat _ _ _ _ _ hx ha hb

/-- The run, read: the result at `lora` of the inputs, the inputs unchanged. -/
theorem run (hfin : ∀ c : Dev nD,
      (∀ j, ∃ r : ℝ, xin m c j = r) ∧ (∀ j, ∃ r : ℝ, ain m c j = r) ∧ (∀ j, ∃ r : ℝ, bin m c j = r)) :
    θ_run defs (onTc (τ := τ) (main (F := Ideal))) ⟨m, fun _ => 0, ρ⟩ fun r => ∀ c : Dev nD,
      r.2.mem ((c : Thread nD τ).loc main_v2)
        = lora (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v2 (Pipeline.mem_restRefs_of main_v2 (by decide) (by decide))).trans
        (result_eq m c (hfin c).1 (hfin c).2.1 (hfin c).2.2),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Hand

end
-- ==== Proof.lean ====
/-
  A low-rank update: `x` of shape [4, 2048, 4096] times the transpose of the 4096 × 4096 matrix `b · a`, where
  `a` is 16 × 4096 and `b` is 4096 × 16.

  The reference forms `b · a` and applies it: entry `(n, s, o)` of its result is
  `∑ i, x (n, s, i) · (∑ k, b (o, k) · a (k, i))`. The kernel never forms the large matrix. It lays `x` out as 8192
  rows, and on each block of 256 rows computes `(x · aᵀ) · bᵀ`: entry `(r, o)` is
  `∑ k, (∑ i, x (r, i) · a (k, i)) · b (o, k)`; the rows are then laid back out as [4, 2048, 4096]. The casts to a
  shorter float format inside the kernel are the identity at the ideal values, and a product into a zero accumulator
  is the plain sum over the contracted axis.

  The two results are equal by distributing the products over the finite sums and exchanging the sums. On the
  extended reals that needs every entry to be a real number, which is what the precondition says of the three
  inputs. So the proof has four parts: the law over the reals and its transfer to the extended reals (SumLaw); the
  two arrangements as functions of the inputs and their equality through the two row-major layouts (Spec);
  finiteness out of the precondition (Finite); and each program's result read as its arrangement — the reference's
  two products entry by entry (RefRead), the kernel's stored block entry by entry (Payload), its 32 blocks covering
  the output and the reshapes around it (KernelValue).

  The three frames are the generated ones (the reference's is its generated run with the result dropped), and the
  idealization rewrote nothing, so there is nothing to preserve.
-/
import proofs.«175328_j45337674777150_1_alg».proof.Defs
import proofs.«175328_j45337674777150_1_alg».proof.Proof.Gen.Kernel
import proofs.«175328_j45337674777150_1_alg».proof.Proof.Gen.Kernel.Skeleton
import proofs.«175328_j45337674777150_1_alg».proof.Proof.Gen.Kernel.Launch
import proofs.«175328_j45337674777150_1_alg».proof.Proof.Gen.Kernel.Points
import proofs.«175328_j45337674777150_1_alg».proof.Proof.Gen.Kernel.Frame
import proofs.«175328_j45337674777150_1_alg».proof.Proof.Gen.KernelIdeal
import proofs.«175328_j45337674777150_1_alg».proof.Proof.Gen.KernelIdeal.Skeleton
import proofs.«175328_j45337674777150_1_alg».proof.Proof.Gen.KernelIdeal.Launch
import proofs.«175328_j45337674777150_1_alg».proof.Proof.Gen.KernelIdeal.Points
import proofs.«175328_j45337674777150_1_alg».proof.Proof.Gen.KernelIdeal.Frame
import proofs.«175328_j45337674777150_1_alg».proof.Proof.Gen.ReferenceIdeal
import proofs.«175328_j45337674777150_1_alg».proof.Proof.Gen.Pre_finite_inputs
import proofs.«175328_j45337674777150_1_alg».proof.Proof.Gen.ReferenceIdeal.Run
import proofs.«175328_j45337674777150_1_alg».proof.Proof.Gen.ReferenceIdeal.Read
import proofs.«175328_j45337674777150_1_alg».proof.Proof.Finite
import proofs.«175328_j45337674777150_1_alg».proof.Proof.RefRead
import proofs.«175328_j45337674777150_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at `lora` of the inputs: the kernel by its blocks and the law under finiteness, the reference
    by reading its two products. -/
theorem algebraic : Cert.algebraic_KernelIdeal_ReferenceIdeal := by
  intro m ρ m' ρ' hpre hagree
  refine ⟨_, Cert.KernelIdeal.Hand.run m ρ (fun c => Cert.LowRank.real_of_pre _ _ _ (hpre c)), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.Hand.ref_eq_lora _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
